-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S4096 .f32) (main_arg8 : FVec F S4096 .f32) (main_arg9 : FVec F S4096 .f32) (main_arg10 : FVec F S1024 .f32) (main_arg11 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S4096x1024 .f32) (main_arg5 : FVec F S4096 .f32) (main_arg6 : FVec F S4096 .f32) (main_arg7 : FVec F S4096 .f32) (main_arg8 : FVec F S4096 .f32) (main_arg9 : FVec F S4096 .f32) (main_arg10 : FVec F S1024 .f32) (main_arg11 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096 .f32) (main_arg6 : FVec F S4096 .f32) (main_arg7 : FVec F S4096 .f32) (main_arg8 : FVec F S4096 .f32) (main_arg9 : FVec F S4096 .f32) (main_arg10 : FVec F S1024 .f32) (main_arg11 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 25
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S1024, .f32⟩
  | .hbm, ⟨11, _⟩ => ⟨S1024, .f32⟩
  | .hbm, ⟨12, _⟩ => ⟨S1024x4096, .f32⟩
  | .hbm, ⟨13, _⟩ => ⟨S1024x4096, .bf16⟩
  | .hbm, ⟨14, _⟩ => ⟨S1024x4096, .f32⟩
  | .hbm, ⟨15, _⟩ => ⟨S1024x4096, .bf16⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S256x1024_S256 : S256x1024.Reduces [1] S256
  broadcasts_S256x1_S256x1024 : S256x1.Broadcasts S256x1024
  broadcasts_S1x1024_S256x1024 : S1x1024.Broadcasts S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S4096x1024.size a
  hwx0_12 : ∀ i : grid0.Coords, EltTy.bits .f32 = 32 ∨ (Rect.block (s := S4096x1024) S256x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S4096x1024.size a
  hwx0_13 : ∀ i : grid0.Coords, EltTy.bits .f32 = 32 ∨ (Rect.block (s := S4096x1024) S256x1024.size (cc0_transform_13 i) (hinb0_13 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11_0) S256x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11_1) S256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩
abbrev S1x1024 : Shape := ⟨2, ![1, 1024]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096, .f32⟩
  | 6 => ⟨S4096, .f32⟩
  | 7 => ⟨S4096, .f32⟩
  | 8 => ⟨S4096, .f32⟩
  | 9 => ⟨S4096, .f32⟩
  | 10 => ⟨S1024, .f32⟩
  | 11 => ⟨S1024, .f32⟩
  | 12 => ⟨S1024x4096, .f32⟩
  | 13 => ⟨S4096x4096, .f32⟩
  | 14 => ⟨S1024x4096, .f32⟩
  | 15 => ⟨S4096x4096, .f32⟩
  | 16 => ⟨S1x4096, .f32⟩
  | 17 => ⟨S4096x4096, .f32⟩
  | 18 => ⟨S4096x4096, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x4096, .f32⟩
  | 26 => ⟨S4096x4096, .f32⟩
  | 27 => ⟨S4096x4096, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S4096x4096, .f32⟩
  | 35 => ⟨S4096x4096, .f32⟩
  | 36 => ⟨S_, .f32⟩
  | 37 => ⟨S4096x1, .f32⟩
  | 38 => ⟨S4096x1, .f32⟩
  | 39 => ⟨S4096x1, .f32⟩
  | 40 => ⟨S4096x4096, .f32⟩
  | 41 => ⟨S4096x4096, .f32⟩
  | 42 => ⟨S1x4096, .f32⟩
  | 43 => ⟨S4096x4096, .f32⟩
  | 44 => ⟨S4096x4096, .f32⟩
  | 45 => ⟨S1x4096, .f32⟩
  | 46 => ⟨S4096x4096, .f32⟩
  | 47 => ⟨S4096x4096, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S4096x4096, .f32⟩
  | 55 => ⟨S4096x4096, .f32⟩
  | 56 => ⟨S4096x4096, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S4096x4096, .f32⟩
  | 64 => ⟨S4096x4096, .f32⟩
  | 65 => ⟨S_, .f32⟩
  | 66 => ⟨S4096x1, .f32⟩
  | 67 => ⟨S4096x1, .f32⟩
  | 68 => ⟨S4096x1, .f32⟩
  | 69 => ⟨S4096x4096, .f32⟩
  | 70 => ⟨S4096x4096, .f32⟩
  | 71 => ⟨S1x4096, .f32⟩
  | 72 => ⟨S4096x4096, .f32⟩
  | 73 => ⟨S4096x4096, .f32⟩
  | 74 => ⟨S1x4096, .f32⟩
  | 75 => ⟨S4096x4096, .f32⟩
  | 76 => ⟨S4096x4096, .f32⟩
  | 77 => ⟨S4096x4096, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S_, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S4096x1024, .f32⟩
  | 118 => ⟨S4096x1024, .f32⟩
  | 119 => ⟨S4096x1024, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S4096x1, .f32⟩
  | 4 => ⟨S4096x1024, .f32⟩
  | 5 => ⟨S4096x1024, .f32⟩
  | 6 => ⟨S1x1024, .f32⟩
  | 7 => ⟨S4096x1024, .f32⟩
  | 8 => ⟨S4096x1024, .f32⟩
  | 9 => ⟨S1x1024, .f32⟩
  | 10 => ⟨S4096x1024, .f32⟩
  | 11 => ⟨S4096x1024, .f32⟩
  | 12 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_19 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  reducesTo_S4096x1024_S4096_d1 : S4096x1024.ReducesTo [1] S4096
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibRowOps.lean ====
/-
  Operations of a row-wise computation read at an index written by coordinates.

  A computation that treats every row of an `[a, b]` array alone (a mean over the row kept as a column
  `[a, 1]`, the column spread back over the row, a parameter vector `[b]` laid along every row, a product of
  the row with a matrix) meets a small set of layout operations and sums, once as a kernel's vector operations
  and once as a host program's. Each lemma here reads one of them at `ix2 p q` (or `ix1 p`) as its operand at
  an index written the same way, or as a `Fin`-indexed sum over the row, so that the two spellings of one
  row-wise function meet as one term. They hold at any extents.
-/
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx

variable {α : Type}

/-! ## A vector as a column, and a column spread over the rows (the kernel's spelling) -/

/-- A vector `[a]` cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A shape cast between equal shapes of rank two is the identity at an index. -/
theorem shapeCast_ab_ab_apply {a b : ℕ} (x : (⟨2, ![a, b]⟩ : Shape).Idx → α) (h : (⟨2, ![a, b]⟩ : Shape).ShapeCasts ⟨2, ![a, b]⟩)
    (j : (⟨2, ![a, b]⟩ : Shape).Idx) : shapeCast ⟨2, ![a, b]⟩ x h j = x j :=
  shapeCast_apply x h j j rfl

/-! ## The same layouts as the host spells them (`stablehlo.broadcast_in_dim`) -/

/-- A vector `[a]` put on axis 0 of the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column `[a, 1]` broadcast in place to `[a, b]` reads, at `(p, q)`, the column at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[b]` put on axis 1 of the one-row matrix `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A one-row matrix `[1, b]` broadcast in place to `[a, b]` reads, at `(p, q)`, its row at `q`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A scalar (rank 0) broadcast to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

/-! ## A row's sum -/

/-- A kernel's lane sum of an `[a, b]` vector over axis 1 from the neutral accumulator is, at row `p`, the sum of that
    row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun ax =>
    match ax with
    | ⟨0, _⟩ => Fin.ext rfl
    | ⟨1, _⟩ => Fin.ext rfl)

/-- The sum a lane sum from the neutral accumulator is by definition, over axis 1 of an `[a, b]` vector, at row `p`:
    the sum of that row. -/
theorem reduceAdd_row {a b : ℕ} {φ : FTy} (src : FVec Ideal ⟨2, ![a, b]⟩ φ)
    (h : (⟨2, ![a, b]⟩ : Shape).Reduces [1] ⟨1, ![a]⟩) (p : Fin a) :
    FloatOps.reduceAdd [1] h src (ix1 p) = ∑ k : Fin b, src (ix2 p k) := by
  refine (Ideal.reduceAdd_single h src (ix1 p)).trans ?_
  exact Finset.sum_congr rfl fun k _ => congrArg src (funext fun ax =>
    match ax with
    | ⟨0, _⟩ => Fin.ext rfl
    | ⟨1, _⟩ => Fin.ext rfl)

/-- The same for an f32 lane sum from the zero word, its neutrality given as the equation `0 = 0` on words. -/
theorem multiReduction_add_row_f32 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun ax =>
    match ax with
    | ⟨0, _⟩ => Fin.ext rfl
    | ⟨1, _⟩ => Fin.ext rfl)

/-- The host's sum of an `[a, b]` array over axis 1 from an initial scalar is, at row `p`, that scalar plus the
    sum of the row. -/
theorem hostReduceAdd_row {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (p : Fin a) :
    Ideal.hostReduceAdd h' x init (ix1 p) = init + ∑ k : Fin b, x (ix2 p k) := by
  refine (Ideal.hostReduceAdd_single h' h x init (ix1 p)).trans ?_
  exact congrArg (init + ·) (Finset.sum_congr rfl fun k _ => congrArg x (funext fun ax =>
    match ax with
    | ⟨0, _⟩ => Fin.ext rfl
    | ⟨1, _⟩ => Fin.ext rfl))

/-- The host's `stablehlo.reduce … add` as a program prints it — the initial value a rank-0 array — at row `p`:
    that scalar plus the sum of the row. -/
theorem Host_reduceAdd_row {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  have e : Shape.Idx.first hu = ix0 := funext fun ax => ax.elim0
  show Ideal.hostReduceAdd h' x (init (Shape.Idx.first hu)) (ix1 p) = _
  rw [e]
  exact hostReduceAdd_row x (init ix0) h' h p

/-! ## A plain matrix product at an index

  The dimension numbers of `x · w` for `x : [M, K]`, `w : [K, N]`: the left operand contracts its axis 1 and keeps its
  axis 0, the right contracts its axis 0 and keeps its axis 1, no batch axes. Stated over ANY such record (its six lists
  given by equations), so that a kernel's record and a host program's, which are different constants, are both read. -/

/-- On the one left axis that is kept (no batch axes) the left index is the result index's first coordinate. -/
theorem lhsIdx_val_kept {sl sr so : Shape} (d : DotDims sl sr so) {a : Fin sl.rank} (hb : d.lhsBatch = [])
    (hn : d.lhsNonContracting = [a]) (j : so.Idx) (k : d.contr.Idx) (h0 : 0 < so.rank) :
    (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the one right axis that is kept (no batch axes, one kept left axis) the right index is the result index's
    second coordinate. -/
theorem rhsIdx_val_kept {sl sr so : Shape} (d : DotDims sl sr so) {a : Fin sr.rank} {a' : Fin sl.rank}
    (hlb : d.lhsBatch = []) (hrb : d.rhsBatch = []) (hln : d.lhsNonContracting = [a']) (hrn : d.rhsNonContracting = [a])
    (j : so.Idx) (k : d.contr.Idx) (h1 : 1 < so.rank) :
    (d.rhsIdx j k a).val = (j ⟨1, h1⟩).val := by
  have hnb : a ∉ d.rhsBatch := by rw [hrb]; exact List.not_mem_nil
  have hmem : a ∈ d.rhsNonContracting := by rw [hrn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

/-- The contraction of a plain product at `(p, j)`: the sum over `k` of the left row `p` against the right column
    `j`. -/
theorem plain_contraction {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (j : Fin N) :
    ∑ k : d.contr.Idx, l (d.lhsIdx (ix2 p j) k) * r (d.rhsIdx (ix2 p j) k) = ∑ k : Fin K, l (ix2 p k) * r (ix2 k j) := by
  have hr : d.contr.rank = 1 := by rw [d.rank_contr, hlc]; rfl
  have hs : d.contr.size ⟨0, by omega⟩ = K := by
    have h := d.size_contr 0 (by rw [hlc]; exact Nat.one_pos)
    simp only [hlc] at h
    exact h
  rw [← Equiv.sum_comp (contrEquiv1 d K hr hs).symm]
  refine Finset.sum_congr rfl fun k _ => ?_
  have hl : d.lhsIdx (ix2 p j) ((contrEquiv1 d K hr hs).symm k) = ix2 p k := funext fun a => Fin.ext (by
    match a with
    | ⟨0, _⟩ => exact lhsIdx_val_kept d hlb hln (ix2 p j) _ Nat.zero_lt_two
    | ⟨1, _⟩ => exact (d.lhsIdx_val_of_single hlc (ix2 p j) _).trans (contrEquiv1_symm_val d K hr hs k))
  have hrr : d.rhsIdx (ix2 p j) ((contrEquiv1 d K hr hs).symm k) = ix2 k j := funext fun a => Fin.ext (by
    match a with
    | ⟨0, _⟩ => exact (d.rhsIdx_val_of_single hrc (ix2 p j) _).trans (contrEquiv1_symm_val d K hr hs k)
    | ⟨1, _⟩ => exact rhsIdx_val_kept d hlb hrb hln hrn (ix2 p j) _ Nat.one_lt_two)
  rw [hl, hrr]

/-- A kernel's matrix product into the zero accumulator, at `(p, j)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (j : Fin N) :
    FloatOps.matmul d prec l r (constant ⟨2, ![M, N]⟩ .f32 0x00000000#32) (ix2 p j) = ∑ k : Fin K, l (ix2 p k) * r (ix2 k j) :=
  (Ideal.matmul_constant_zero_apply d prec l r (ix2 p j)).trans (plain_contraction d hlc hrc hln hrn hlb hrb l r p j)

/-- The host's matrix product, at `(p, j)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (j : Fin N) :
    FloatOps.dotGeneral d prec sched l r (ix2 p j) = ∑ k : Fin K, l (ix2 p k) * r (ix2 k j) :=
  (Ideal.dotGeneral_apply d prec sched l r (ix2 p j)).trans (plain_contraction d hlc hrc hln hrn hlb hrb l r p j)

end Cert.LibRowOps

end
-- ==== Proof.LibLayerNorm.lean ====
/-
  A row's mean, variance and layer norm, and rows and columns of a matrix as plain functions.

  A layer norm over the last axis treats every row of an `[a, n]` array alone: the row's mean is its sum over a count,
  its variance the mean of the squared deviations, and the normalised row is the deviation times the reciprocal root
  of the variance plus an epsilon, times a gain, plus a bias. Stated here once over a row as a plain function of a
  `Fin` index, on the extended reals, with the count and the epsilon as values (programs write them as float words).
-/
import Idealize.ShloMosaic.PureOps.Ideal
import Idealize.ShloMosaic.Lib.ValueIdx

noncomputable section

namespace Cert.LibLayerNorm

open Idealize.ShloMosaic Idealize.ShloMosaic.ValueIdx

/-- Row `p` of a matrix, as a function of the column. -/
def row {A B : ℕ} (x : (⟨2, ![A, B]⟩ : Shape).Idx → EReal) (p : Fin A) : Fin B → EReal := fun k => x (ix2 p k)

/-- Column `j` of a matrix, as a function of the row. -/
def col {A B : ℕ} (x : (⟨2, ![A, B]⟩ : Shape).Idx → EReal) (j : Fin B) : Fin A → EReal := fun k => x (ix2 k j)

/-- The one row of a `[1, n]` matrix. -/
def only {B : ℕ} (v : (⟨2, ![1, B]⟩ : Shape).Idx → EReal) : Fin B → EReal := fun j => v (ix2 (0 : Fin 1) j)

/-- A vector `[n]` as a function of its one coordinate. -/
def ofVec {B : ℕ} (v : (⟨1, ![B]⟩ : Shape).Idx → EReal) : Fin B → EReal := fun j => v (ix1 j)

/-- A row contracted with another: the sum of the products. -/
def dot {K : ℕ} (x w : Fin K → EReal) : EReal := ∑ k, x k * w k

/-- A row's mean: its sum over the count `n`. -/
def mean {N : ℕ} (n : EReal) (v : Fin N → EReal) : EReal := Ideal.div (∑ j, v j) n

/-- A row's variance about its mean: the mean of the squared deviations. -/
def var {N : ℕ} (n : EReal) (v : Fin N → EReal) : EReal :=
  Ideal.div (∑ j, (v j - mean n v) * (v j - mean n v)) n

/-- The layer norm's scaled part at entry `j`: the deviation times the reciprocal root of the variance plus
    epsilon, times the gain. -/
def scaled {N : ℕ} (n ε : EReal) (v γ : Fin N → EReal) (j : Fin N) : EReal :=
  (v j - mean n v) * Ideal.rsqrt (var n v + ε) * γ j

/-- The layer norm of a row with gain `γ` and bias `β`. -/
def norm {N : ℕ} (n ε : EReal) (v γ β : Fin N → EReal) (j : Fin N) : EReal := scaled n ε v γ j + β j

end Cert.LibLayerNorm

end
-- ==== Proof.RowSpec.lean ====
/-
  The layer-normalised LSTM cell as a function of ONE batch row.

  Both programs treat every batch row alone: a row `x` of the inputs and a row `h` of the hidden state are
  contracted with the rows of two weight matrices, the two results are layer-normalised over their 4096 entries and
  added (the gates), the gates are cut into four stretches of 1024 — input, forget, output and candidate —, the new cell
  row is `σ(f)·c + σ(i)·tanh g`, and the new hidden row is `σ(o)` times the layer norm, over its 1024 entries, of
  `tanh` of the new cell row. This module states that once, over plain functions of `Fin` indices into one row, on the
  extended reals; the kernel's block at a grid point and the reference's whole arrays are both read, row by row, as
  this function.

  The three float literals of the computation — the counts 4096 and 1024 the means divide by, and the layer norm's
  epsilon — appear in both programs as the same words, so they are kept as those words' values and never evaluated.
-/
import Idealize.ShloMosaic.PureOps.Ideal
import Idealize.ShloMosaic.PureOps.IdealRules
import Idealize.ShloMosaic.Lib.ValueIdx
import proofs.«413633_j31679678775450_3_alg».proof.Proof.LibLayerNorm

noncomputable section

namespace Cert.LnLstm

open Idealize.ShloMosaic Idealize.ShloMosaic.ValueIdx Cert.LibLayerNorm

/-- The count 4096 as the programs write it: the value of the f32 word `0x45800000`. -/
def n4096 : EReal := Ideal.ofBits .f32 0x45800000#32
/-- The count 1024: the value of the f32 word `0x44800000`. -/
def n1024 : EReal := Ideal.ofBits .f32 0x44800000#32
/-- The layer norm's epsilon: the value of the f32 word `0x3727C5AC` (the f32 nearest to 1e-5). -/
def eps : EReal := Ideal.ofBits .f32 0x3727C5AC#32

/-- The parameters every row shares: the two weight matrices by rows, the hidden bias, and the three layer norms'
    gains and biases. -/
structure Params where
  wih : Fin 4096 → Fin 1024 → EReal
  whh : Fin 4096 → Fin 1024 → EReal
  bhh : Fin 4096 → EReal
  gih : Fin 4096 → EReal
  bih : Fin 4096 → EReal
  ghh : Fin 4096 → EReal
  bhh' : Fin 4096 → EReal
  gho : Fin 1024 → EReal
  bho : Fin 1024 → EReal

/-- The input row against the input weights. -/
def i2h (P : Params) (x : Fin 1024 → EReal) (j : Fin 4096) : EReal := dot x (P.wih j)

/-- The hidden row against the hidden weights, plus the hidden bias. -/
def h2h (P : Params) (h : Fin 1024 → EReal) (j : Fin 4096) : EReal := dot h (P.whh j) + P.bhh j

/-- The gates: the two products, each layer-normalised over its 4096 entries, added. -/
def gates (P : Params) (x h : Fin 1024 → EReal) (j : Fin 4096) : EReal :=
  norm n4096 eps (i2h P x) P.gih P.bih j + norm n4096 eps (h2h P h) P.ghh P.bhh' j

/-- The new cell row: `σ(f)·c + σ(i)·tanh g`, the gates' stretches at 1024, 0 and 3072. -/
def cy (P : Params) (x h c : Fin 1024 → EReal) (q : Fin 1024) : EReal :=
  Ideal.logistic (gates P x h ⟨1024 + q.val, by omega⟩) * c q
    + Ideal.logistic (gates P x h ⟨q.val, by omega⟩) * Ideal.tanh (gates P x h ⟨3072 + q.val, by omega⟩)

/-- `tanh` of the new cell row: what the last layer norm is taken of. -/
def tcy (P : Params) (x h c : Fin 1024 → EReal) (q : Fin 1024) : EReal := Ideal.tanh (cy P x h c q)

/-- The new hidden row: `σ(o)`, the gates' stretch at 2048, times the layer norm of `tanh` of the new cell row. -/
def hy (P : Params) (x h c : Fin 1024 → EReal) (q : Fin 1024) : EReal :=
  Ideal.logistic (gates P x h ⟨2048 + q.val, by omega⟩) * norm n1024 eps (tcy P x h c) P.gho P.bho q

/-- The shared parameters from the nine parameter arrays as a program's arguments hold them: a weight matrix by its
    rows, a vector by its entries. -/
def paramsOf (wih whh : (⟨2, ![4096, 1024]⟩ : Shape).Idx → EReal)
    (bhh gih bih ghh bhh' : (⟨1, ![4096]⟩ : Shape).Idx → EReal) (gho bho : (⟨1, ![1024]⟩ : Shape).Idx → EReal) : Params where
  wih := fun j => row wih j
  whh := fun j => row whh j
  bhh := ofVec bhh
  gih := ofVec gih
  bih := ofVec bih
  ghh := ofVec ghh
  bhh' := ofVec bhh'
  gho := ofVec gho
  bho := ofVec bho

/-- The new cell state over the whole batch: at `(b, q)`, the cell's row function of row `b` of the three batch
    arrays. -/
def cyArr (P : Params) (X H C : (⟨2, ![4096, 1024]⟩ : Shape).Idx → EReal) : (⟨2, ![4096, 1024]⟩ : Shape).Idx → EReal :=
  fun i => cy P (row X (i 0)) (row H (i 0)) (row C (i 0)) (i 1)

/-- The new hidden state over the whole batch. -/
def hyArr (P : Params) (X H C : (⟨2, ![4096, 1024]⟩ : Shape).Idx → EReal) : (⟨2, ![4096, 1024]⟩ : Shape).Idx → EReal :=
  fun i => hy P (row X (i 0)) (row H (i 0)) (row C (i 0)) (i 1)

theorem cyArr_ix2 (P : Params) (X H C : (⟨2, ![4096, 1024]⟩ : Shape).Idx → EReal) (b : Fin 4096) (q : Fin 1024) :
    cyArr P X H C (ix2 b q) = cy P (row X b) (row H b) (row C b) q := rfl

theorem hyArr_ix2 (P : Params) (X H C : (⟨2, ![4096, 1024]⟩ : Shape).Idx → EReal) (b : Fin 4096) (q : Fin 1024) :
    hyArr P X H C (ix2 b q) = hy P (row X b) (row H b) (row C b) q := rfl

/-- The f32 word of `1.0` is the extended real `1`: the constant a program that spells the logistic function out
    (`1 / (1 + e⁻ˣ)`) writes twice. -/
theorem ofBits_one_f32 : Ideal.ofBits .f32 0x3F800000#32 = 1 := IdealRules.sign_bit.ideal_onePat .f32

/-- The logistic function spelt out over that word is the logistic function. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.LnLstm

end
-- ==== Proof.KernelRow.lean ====
/-
  The kernel's block at a grid point, read row by row.

  At a grid point the kernel holds 256 rows of the inputs, of the hidden state and of the cell state, the two weight
  matrices whole (transposed: their columns are the weights' rows) and the seven parameter vectors as one-row matrices.
  Its body never mixes two rows: the two matrix products contract a row with the weights' columns, every mean and
  variance is taken along a row, and the four gate stretches are cut along a row. So the value the body stores at row
  `p`, column `q` of a block is the cell's row function (`Cert.LnLstm.cy`, `Cert.LnLstm.hy`) of row `p` of the three
  input blocks, at `q`. This module proves that, one stage of the body's arithmetic at a time.
-/
import proofs.«413633_j31679678775450_3_alg».proof.Proof.Gen.KernelIdeal.Skeleton
import proofs.«413633_j31679678775450_3_alg».proof.Proof.LibRowOps
import proofs.«413633_j31679678775450_3_alg».proof.Proof.RowSpec

noncomputable section

namespace Cert.KernelIdeal.RowValue

open Cert.KernelIdeal Cert.KernelIdeal.Gen Idealize.ShloMosaic Idealize.ShloMosaic.ValueIdx
open Cert.LibRowOps Cert.LibLayerNorm Cert.LnLstm

/-! ## The three functions the body applies entry by entry -/

theorem rsqrt_apply {s : Shape} {φ : FTy} (a : FVec Ideal s φ) (i : s.Idx) : rsqrt a i = Ideal.rsqrt (a i) := rfl
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- Push an index through the body's entry-wise operations, its column casts and its row and column broadcasts. -/
local macro "push_index" : tactic => `(tactic| simp only [mulf_apply, subf_apply, addf_apply, divf_apply, broadcast_apply,
  rsqrt_apply, logistic_apply, tanh_apply, matmul, broadcastTo_a1_ab_apply, broadcastTo_1b_ab_apply, shapeCast_a_a1_apply,
  shapeCast_ab_ab_apply, truncf_apply, reduceAdd_row (h := reduces_S256x4096_S256), reduceAdd_row (h := reduces_S256x1024_S256),
  matmul_zero_plain_apply dot_S256x1024_S1024x4096_S256x4096_1_0_0_1_n_n rfl rfl rfl rfl rfl rfl])

/-- Then read every row sum and matrix product the index has reached, pushing on inside each new sum, until nothing
    is left to read. -/
local macro "read_rows" : tactic => `(tactic| repeat (first
  | rw [reduceAdd_row]
  | rw [matmul_zero_plain_apply _ rfl rfl rfl rfl rfl rfl]
  | push_index))

/-! ## The parameters as the kernel's blocks hold them -/

/-- The shared parameters read off the kernel's blocks: a weight's row `j` is column `j` of the transposed block; a
    parameter vector is the one row of its `[1, n]` block. -/
def params (w1 w2 : FVec Ideal S1024x4096 .bf16) (b g1 b1 g2 b2 : FVec Ideal S1x4096 .f32)
    (g3 b3 : FVec Ideal S1x1024 .f32) : Params where
  wih := fun j => col w1 j
  whh := fun j => col w2 j
  bhh := only b
  gih := only g1
  bih := only b1
  ghh := only g2
  bhh' := only b2
  gho := only g3
  bho := only b3

/-! ## The body's stages at row `p` -/

/-- The hidden product plus its bias, at `(p, j)`: row `p` of the hidden block against column `j` of the weights. -/
theorem pay2_apply (h0 : FVec Ideal S256x1024 .f32) (w2 : FVec Ideal S1024x4096 .bf16) (b : FVec Ideal S1x4096 .f32)
    (p : Fin 256) (j : Fin 4096) :
    k0_pay2 (F := Ideal) h0 w2 b (ix2 p j) = dot (row h0 p) (col w2 j) + only b j := by
  unfold k0_pay2
  simp only [addf_apply, matmul]
  rw [matmul_zero_plain_apply _ rfl rfl rfl rfl rfl rfl, broadcastTo_1b_ab_apply, shapeCast_ab_ab_apply]
  simp only [shapeCast_ab_ab_apply]
  rfl

/-- A parameter block passed through an identity cast is itself. -/
theorem pay3_apply (v : FVec Ideal S1x4096 .f32) (j : Fin 4096) : only (k0_pay3 (F := Ideal) v) j = only v j := by
  unfold k0_pay3 only
  exact shapeCast_ab_ab_apply _ _ _

theorem pay9_apply (v : FVec Ideal S1x1024 .f32) (j : Fin 1024) : only (k0_pay9 (F := Ideal) v) j = only v j := by
  unfold k0_pay9 only
  exact shapeCast_ab_ab_apply _ _ _

theorem pay10_apply (v : FVec Ideal S1x1024 .f32) (j : Fin 1024) : only (k0_pay10 (F := Ideal) v) j = only v j := by
  unfold k0_pay10 only
  exact shapeCast_ab_ab_apply _ _ _

/-- The input product, layer-normalised along the row and scaled by its gain (the bias is added later), at `(p, j)`. -/
theorem pay4_apply (x0 : FVec Ideal S256x1024 .f32) (w1 : FVec Ideal S1024x4096 .bf16) (g1 : FVec Ideal S1x4096 .f32)
    (p : Fin 256) (j : Fin 4096) :
    k0_pay4 (F := Ideal) x0 w1 g1 (ix2 p j)
      = scaled n4096 eps (fun j => dot (row x0 p) (col w1 j)) (only g1) j := by
  unfold k0_pay4 multiReduction
  push_index
  read_rows
  rfl

/-- The gates at `(p, j)`, from the hidden product `v13`, the input norm's bias `v17` and the input product's scaled
    norm `v37`: the input norm completed, plus the hidden product's norm along its row. -/
theorem pay5_apply (v13 : FVec Ideal S256x4096 .f32) (v17 : FVec Ideal S1x4096 .f32) (v37 : FVec Ideal S256x4096 .f32)
    (g2 b2 : FVec Ideal S1x4096 .f32) (p : Fin 256) (j : Fin 4096) :
    k0_pay5 (F := Ideal) v13 v17 v37 g2 b2 (ix2 p j)
      = (v37 (ix2 p j) + only v17 j) + norm n4096 eps (row v13 p) (only g2) (only b2) j := by
  unfold k0_pay5 multiReduction
  push_index
  read_rows
  rfl

/-- The output gate's stretch: the gates from column 2048. -/
theorem pay6_apply (v13 : FVec Ideal S256x4096 .f32) (v17 : FVec Ideal S1x4096 .f32) (v37 : FVec Ideal S256x4096 .f32)
    (g2 b2 : FVec Ideal S1x4096 .f32) (p : Fin 256) (q : Fin 1024) :
    k0_pay6 (F := Ideal) v13 v17 v37 g2 b2 (ix2 p q)
      = k0_pay5 (F := Ideal) v13 v17 v37 g2 b2 (ix2 p ⟨2048 + q.val, by omega⟩) := by
  unfold k0_pay6
  exact slice2_axis1_apply 2048 _ _ p q _ rfl

/-- The new cell value at `(p, q)`: the forget, input and candidate stretches of the gates against the cell block. -/
theorem pay7_apply (v13 : FVec Ideal S256x4096 .f32) (v17 : FVec Ideal S1x4096 .f32) (v37 : FVec Ideal S256x4096 .f32)
    (g2 b2 : FVec Ideal S1x4096 .f32) (c0 : FVec Ideal S256x1024 .f32) (p : Fin 256) (q : Fin 1024) :
    k0_pay7 (F := Ideal) v13 v17 v37 g2 b2 c0 (ix2 p q)
      = Ideal.logistic (k0_pay5 (F := Ideal) v13 v17 v37 g2 b2 (ix2 p ⟨1024 + q.val, by omega⟩)) * c0 (ix2 p q)
        + Ideal.logistic (k0_pay5 (F := Ideal) v13 v17 v37 g2 b2 (ix2 p ⟨q.val, by omega⟩))
          * Ideal.tanh (k0_pay5 (F := Ideal) v13 v17 v37 g2 b2 (ix2 p ⟨3072 + q.val, by omega⟩)) := by
  unfold k0_pay7
  simp only [mulf_apply, addf_apply, logistic_apply, tanh_apply, slice2_axis1_eq, zero_add]

/-- `tanh` of the new cell value. -/
theorem pay8_apply (v13 : FVec Ideal S256x4096 .f32) (v17 : FVec Ideal S1x4096 .f32) (v37 : FVec Ideal S256x4096 .f32)
    (g2 b2 : FVec Ideal S1x4096 .f32) (c0 : FVec Ideal S256x1024 .f32) (i : S256x1024.Idx) :
    k0_pay8 (F := Ideal) v13 v17 v37 g2 b2 c0 i = Ideal.tanh (k0_pay7 (F := Ideal) v13 v17 v37 g2 b2 c0 i) := by
  unfold k0_pay8
  rfl

/-- The new hidden value at `(p, q)`: the output gate `v69` against the layer norm of `v78` along its row. -/
theorem pay1_apply (v69 v78 : FVec Ideal S256x1024 .f32) (v80 v82 : FVec Ideal S1x1024 .f32) (p : Fin 256) (q : Fin 1024) :
    k0_pay1 (F := Ideal) v69 v78 v80 v82 (ix2 p q)
      = Ideal.logistic (v69 (ix2 p q)) * norm n1024 eps (row v78 p) (only v80) (only v82) q := by
  unfold k0_pay1 multiReduction
  push_index
  read_rows
  rfl

/-! ## The stages composed: a block's row is the cell's row function -/

section Block

variable (x0 h0 c0 : FVec Ideal S256x1024 .f32) (w1 w2 : FVec Ideal S1024x4096 .bf16)
  (b g1 b1 g2 b2 : FVec Ideal S1x4096 .f32) (g3 b3 : FVec Ideal S1x1024 .f32)

/-- The gates the body computes at row `p` are the cell's gates of row `p` of the input and hidden blocks. -/
theorem gates_block (p : Fin 256) (j : Fin 4096) :
    k0_pay5 (F := Ideal) (k0_pay2 h0 w2 b) (k0_pay3 b1) (k0_pay4 x0 w1 g1) g2 b2 (ix2 p j)
      = gates (params w1 w2 b g1 b1 g2 b2 g3 b3) (row x0 p) (row h0 p) j := by
  rw [pay5_apply, pay4_apply, pay3_apply]
  have hrow : row (k0_pay2 (F := Ideal) h0 w2 b) p = h2h (params w1 w2 b g1 b1 g2 b2 g3 b3) (row h0 p) :=
    funext fun j => pay2_apply h0 w2 b p j
  rw [hrow]
  rfl

/-- The value stored to the cell output at `(p, q)`. -/
theorem cy_block (p : Fin 256) (q : Fin 1024) :
    k0_pay7 (F := Ideal) (k0_pay2 h0 w2 b) (k0_pay3 b1) (k0_pay4 x0 w1 g1) g2 b2 c0 (ix2 p q)
      = cy (params w1 w2 b g1 b1 g2 b2 g3 b3) (row x0 p) (row h0 p) (row c0 p) q := by
  rw [pay7_apply, gates_block x0 h0 w1 w2 b g1 b1 g2 b2 g3 b3, gates_block x0 h0 w1 w2 b g1 b1 g2 b2 g3 b3,
    gates_block x0 h0 w1 w2 b g1 b1 g2 b2 g3 b3]
  rfl

/-- The value stored to the hidden output at `(p, q)`. -/
theorem hy_block (p : Fin 256) (q : Fin 1024) :
    k0_pay1 (F := Ideal) (k0_pay6 (k0_pay2 h0 w2 b) (k0_pay3 b1) (k0_pay4 x0 w1 g1) g2 b2)
        (k0_pay8 (k0_pay2 h0 w2 b) (k0_pay3 b1) (k0_pay4 x0 w1 g1) g2 b2 c0) (k0_pay9 g3) (k0_pay10 b3) (ix2 p q)
      = hy (params w1 w2 b g1 b1 g2 b2 g3 b3) (row x0 p) (row h0 p) (row c0 p) q := by
  rw [pay1_apply, pay6_apply, gates_block x0 h0 w1 w2 b g1 b1 g2 b2 g3 b3]
  have hrow : row (k0_pay8 (F := Ideal) (k0_pay2 h0 w2 b) (k0_pay3 b1) (k0_pay4 x0 w1 g1) g2 b2 c0) p
      = tcy (params w1 w2 b g1 b1 g2 b2 g3 b3) (row x0 p) (row h0 p) (row c0 p) :=
    funext fun q => by
      show k0_pay8 (F := Ideal) _ _ _ g2 b2 c0 (ix2 p q) = _
      rw [pay8_apply, cy_block x0 h0 c0 w1 w2 b g1 b1 g2 b2 g3 b3]
      rfl
  have hg : only (k0_pay9 (F := Ideal) g3) = only g3 := funext fun j => pay9_apply g3 j
  have hb : only (k0_pay10 (F := Ideal) b3) = only b3 := funext fun j => pay10_apply b3 j
  rw [hrow, hg, hb]
  rfl

end Block

end Cert.KernelIdeal.RowValue

end
-- ==== Proof.KernelArrays.lean ====
/-
  From the kernel's blocks to its two result arrays.

  The grid has 16 points; point `t` holds rows `256 t … 256 t + 255` of the three batch arrays and writes the same rows of
  the two results, while the weights and the parameter vectors are held whole at every point. The weights reach the
  kernel transposed by the host, the vectors reshaped to one-row matrices. So what point `t` writes back to a result is
  the block at `t` of one whole-array function of the ARGUMENTS — the cell's row function of rows `256 t + p` —, the 16
  blocks cover the result, and the array after the run is that function.
-/
import proofs.«413633_j31679678775450_3_alg».proof.Proof.KernelIdealValueP
import proofs.«413633_j31679678775450_3_alg».proof.Proof.KernelRow
import Idealize.ShloMosaic.Lib.StableHlo.Run

noncomputable section

namespace Cert.KernelIdeal.Arrays

open Cert.KernelIdeal Cert.KernelIdeal.Gen Cert.KernelIdeal.ValueP Idealize.ShloMosaic Idealize.ShloMosaic.TcCoe Idealize.SL.Sem
open Idealize.ShloMosaic.Pipeline (Dat)
open Idealize.ShloMosaic.StableHlo
open Idealize.ShloMosaic.ValueIdx Cert.LibRowOps Cert.LibLayerNorm Cert.LnLstm Cert.KernelIdeal.RowValue

variable (m : (ℓ : Loc nD τ sig) → Buf (Elt Ideal) ℓ) (ρ : Dev nD → PrngReg)

/-- Every offset of the body's one store per result is zero. -/
theorem hz : (![0, 0] : Fin 2 → Nat) = fun _ => 0 := funext fun a => by fin_cases a <;> rfl

/-- Row `p` of the block at point `t` is row `256 t + p` of the batch. -/
def rowOf (t : Fin cfg0.N) (p : Fin 256) : Fin 4096 :=
  ⟨t.val * 256 + p.val, by have ht : t.val < 16 := t.isLt; have hp := p.isLt; omega⟩

/-! ## The windows' index maps, decided over the 16 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-! ## The blocks at a point, by their literal types, and what they read off their arrays -/

abbrev bX (c : Dev nD) (t : Fin cfg0.N) : FVec Ideal S256x1024 .f32 := iblk m c 0 t
abbrev bH (c : Dev nD) (t : Fin cfg0.N) : FVec Ideal S256x1024 .f32 := iblk m c 1 t
abbrev bC (c : Dev nD) (t : Fin cfg0.N) : FVec Ideal S256x1024 .f32 := iblk m c 2 t
abbrev bWih (c : Dev nD) (t : Fin cfg0.N) : FVec Ideal S1024x4096 .bf16 := iblk m c 3 t
abbrev bWhh (c : Dev nD) (t : Fin cfg0.N) : FVec Ideal S1024x4096 .bf16 := iblk m c 4 t
abbrev bBhh (c : Dev nD) (t : Fin cfg0.N) : FVec Ideal S1x4096 .f32 := iblk m c 5 t
abbrev bGih (c : Dev nD) (t : Fin cfg0.N) : FVec Ideal S1x4096 .f32 := iblk m c 6 t
abbrev bBih (c : Dev nD) (t : Fin cfg0.N) : FVec Ideal S1x4096 .f32 := iblk m c 7 t
abbrev bGhh (c : Dev nD) (t : Fin cfg0.N) : FVec Ideal S1x4096 .f32 := iblk m c 8 t
abbrev bBhh' (c : Dev nD) (t : Fin cfg0.N) : FVec Ideal S1x4096 .f32 := iblk m c 9 t
abbrev bGho (c : Dev nD) (t : Fin cfg0.N) : FVec Ideal S1x1024 .f32 := iblk m c 10 t
abbrev bBho (c : Dev nD) (t : Fin cfg0.N) : FVec Ideal S1x1024 .f32 := iblk m c 11 t

/-- Row `p` of the inputs' block at point `t` is row `256 t + p` of the inputs. -/
theorem bX_apply (c : Dev nD) (t : Fin cfg0.N) (p : Fin 256) (k : Fin 1024) :
    bX m c t (ix2 p k) = V m c main_arg0 (ix2 (rowOf t p) k) := by
  obtain ⟨e0, e1⟩ := idx0 t
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- The same for the hidden state's block. -/
theorem bH_apply (c : Dev nD) (t : Fin cfg0.N) (p : Fin 256) (k : Fin 1024) :
    bH m c t (ix2 p k) = V m c main_arg1 (ix2 (rowOf t p) k) := by
  obtain ⟨e0, e1⟩ := idx1 t
  show V m c main_arg1 (((cfg0.win 1).blk t).view.emb (ix2 p k)) = V m c main_arg1 (ix2 (rowOf t p) k)
  refine congrArg (V m c main_arg1) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- The same for the cell state's block. -/
theorem bC_apply (c : Dev nD) (t : Fin cfg0.N) (p : Fin 256) (k : Fin 1024) :
    bC m c t (ix2 p k) = V m c main_arg2 (ix2 (rowOf t p) k) := by
  obtain ⟨e0, e1⟩ := idx2 t
  show V m c main_arg2 (((cfg0.win 2).blk t).view.emb (ix2 p k)) = V m c main_arg2 (ix2 (rowOf t p) k)
  refine congrArg (V m c main_arg2) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- The input weights' block is the transposed, narrowed weights whole. -/
theorem bWih_apply (c : Dev nD) (t : Fin cfg0.N) (a : Fin 1024) (b : Fin 4096) :
    bWih m c t (ix2 a b) = V m c main_v1 (ix2 a b) := by
  obtain ⟨e0, e1⟩ := idx3 t
  show V m c main_v1 (((cfg0.win 3).blk t).view.emb (ix2 a b)) = V m c main_v1 (ix2 a b)
  refine congrArg (V m c main_v1) (funext fun ax => Fin.ext ?_)
  match ax with
  | ⟨0, _⟩ => show win0_3.index t (0 : Fin 2) * 1024 + 1 * a.val = a.val; omega
  | ⟨1, _⟩ => show win0_3.index t (1 : Fin 2) * 4096 + 1 * b.val = b.val; omega

/-- The hidden weights' block likewise. -/
theorem bWhh_apply (c : Dev nD) (t : Fin cfg0.N) (a : Fin 1024) (b : Fin 4096) :
    bWhh m c t (ix2 a b) = V m c main_v3 (ix2 a b) := by
  obtain ⟨e0, e1⟩ := idx4 t
  show V m c main_v3 (((cfg0.win 4).blk t).view.emb (ix2 a b)) = V m c main_v3 (ix2 a b)
  refine congrArg (V m c main_v3) (funext fun ax => Fin.ext ?_)
  match ax with
  | ⟨0, _⟩ => show win0_4.index t (0 : Fin 2) * 1024 + 1 * a.val = a.val; omega
  | ⟨1, _⟩ => show win0_4.index t (1 : Fin 2) * 4096 + 1 * b.val = b.val; omega

/-- Each parameter vector's block is its one-row matrix whole. -/
theorem bBhh_apply (c : Dev nD) (t : Fin cfg0.N) (a : Fin 1) (b : Fin 4096) :
    bBhh m c t (ix2 a b) = V m c main_v4 (ix2 a b) := by
  obtain ⟨e0, e1⟩ := idx5 t
  show V m c main_v4 (((cfg0.win 5).blk t).view.emb (ix2 a b)) = V m c main_v4 (ix2 a b)
  refine congrArg (V m c main_v4) (funext fun ax => Fin.ext ?_)
  match ax with
  | ⟨0, _⟩ => show win0_5.index t (0 : Fin 2) * 1 + 1 * a.val = a.val; omega
  | ⟨1, _⟩ => show win0_5.index t (1 : Fin 2) * 4096 + 1 * b.val = b.val; omega

theorem bGih_apply (c : Dev nD) (t : Fin cfg0.N) (a : Fin 1) (b : Fin 4096) :
    bGih m c t (ix2 a b) = V m c main_v5 (ix2 a b) := by
  obtain ⟨e0, e1⟩ := idx6 t
  show V m c main_v5 (((cfg0.win 6).blk t).view.emb (ix2 a b)) = V m c main_v5 (ix2 a b)
  refine congrArg (V m c main_v5) (funext fun ax => Fin.ext ?_)
  match ax with
  | ⟨0, _⟩ => show win0_6.index t (0 : Fin 2) * 1 + 1 * a.val = a.val; omega
  | ⟨1, _⟩ => show win0_6.index t (1 : Fin 2) * 4096 + 1 * b.val = b.val; omega

theorem bBih_apply (c : Dev nD) (t : Fin cfg0.N) (a : Fin 1) (b : Fin 4096) :
    bBih m c t (ix2 a b) = V m c main_v6 (ix2 a b) := by
  obtain ⟨e0, e1⟩ := idx7 t
  show V m c main_v6 (((cfg0.win 7).blk t).view.emb (ix2 a b)) = V m c main_v6 (ix2 a b)
  refine congrArg (V m c main_v6) (funext fun ax => Fin.ext ?_)
  match ax with
  | ⟨0, _⟩ => show win0_7.index t (0 : Fin 2) * 1 + 1 * a.val = a.val; omega
  | ⟨1, _⟩ => show win0_7.index t (1 : Fin 2) * 4096 + 1 * b.val = b.val; omega

theorem bGhh_apply (c : Dev nD) (t : Fin cfg0.N) (a : Fin 1) (b : Fin 4096) :
    bGhh m c t (ix2 a b) = V m c main_v7 (ix2 a b) := by
  obtain ⟨e0, e1⟩ := idx8 t
  show V m c main_v7 (((cfg0.win 8).blk t).view.emb (ix2 a b)) = V m c main_v7 (ix2 a b)
  refine congrArg (V m c main_v7) (funext fun ax => Fin.ext ?_)
  match ax with
  | ⟨0, _⟩ => show win0_8.index t (0 : Fin 2) * 1 + 1 * a.val = a.val; omega
  | ⟨1, _⟩ => show win0_8.index t (1 : Fin 2) * 4096 + 1 * b.val = b.val; omega

theorem bBhh'_apply (c : Dev nD) (t : Fin cfg0.N) (a : Fin 1) (b : Fin 4096) :
    bBhh' m c t (ix2 a b) = V m c main_v8 (ix2 a b) := by
  obtain ⟨e0, e1⟩ := idx9 t
  show V m c main_v8 (((cfg0.win 9).blk t).view.emb (ix2 a b)) = V m c main_v8 (ix2 a b)
  refine congrArg (V m c main_v8) (funext fun ax => Fin.ext ?_)
  match ax with
  | ⟨0, _⟩ => show win0_9.index t (0 : Fin 2) * 1 + 1 * a.val = a.val; omega
  | ⟨1, _⟩ => show win0_9.index t (1 : Fin 2) * 4096 + 1 * b.val = b.val; omega

theorem bGho_apply (c : Dev nD) (t : Fin cfg0.N) (a : Fin 1) (b : Fin 1024) :
    bGho m c t (ix2 a b) = V m c main_v9 (ix2 a b) := by
  obtain ⟨e0, e1⟩ := idx10 t
  show V m c main_v9 (((cfg0.win 10).blk t).view.emb (ix2 a b)) = V m c main_v9 (ix2 a b)
  refine congrArg (V m c main_v9) (funext fun ax => Fin.ext ?_)
  match ax with
  | ⟨0, _⟩ => show win0_10.index t (0 : Fin 2) * 1 + 1 * a.val = a.val; omega
  | ⟨1, _⟩ => show win0_10.index t (1 : Fin 2) * 1024 + 1 * b.val = b.val; omega

theorem bBho_apply (c : Dev nD) (t : Fin cfg0.N) (a : Fin 1) (b : Fin 1024) :
    bBho m c t (ix2 a b) = V m c main_v10 (ix2 a b) := by
  obtain ⟨e0, e1⟩ := idx11 t
  show V m c main_v10 (((cfg0.win 11).blk t).view.emb (ix2 a b)) = V m c main_v10 (ix2 a b)
  refine congrArg (V m c main_v10) (funext fun ax => Fin.ext ?_)
  match ax with
  | ⟨0, _⟩ => show win0_11.index t (0 : Fin 2) * 1 + 1 * a.val = a.val; omega
  | ⟨1, _⟩ => show win0_11.index t (1 : Fin 2) * 1024 + 1 * b.val = b.val; omega

/-! ## The arguments, and what the host hands the region -/

abbrev aX (c : Dev nD) : FVec Ideal S4096x1024 .f32 := m ((c : Thread nD τ).loc main_arg0)
abbrev aH (c : Dev nD) : FVec Ideal S4096x1024 .f32 := m ((c : Thread nD τ).loc main_arg1)
abbrev aC (c : Dev nD) : FVec Ideal S4096x1024 .f32 := m ((c : Thread nD τ).loc main_arg2)
abbrev aWih (c : Dev nD) : FVec Ideal S4096x1024 .f32 := m ((c : Thread nD τ).loc main_arg3)
abbrev aWhh (c : Dev nD) : FVec Ideal S4096x1024 .f32 := m ((c : Thread nD τ).loc main_arg4)
abbrev aBhh (c : Dev nD) : FVec Ideal S4096 .f32 := m ((c : Thread nD τ).loc main_arg5)
abbrev aGih (c : Dev nD) : FVec Ideal S4096 .f32 := m ((c : Thread nD τ).loc main_arg6)
abbrev aBih (c : Dev nD) : FVec Ideal S4096 .f32 := m ((c : Thread nD τ).loc main_arg7)
abbrev aGhh (c : Dev nD) : FVec Ideal S4096 .f32 := m ((c : Thread nD τ).loc main_arg8)
abbrev aBhh' (c : Dev nD) : FVec Ideal S4096 .f32 := m ((c : Thread nD τ).loc main_arg9)
abbrev aGho (c : Dev nD) : FVec Ideal S1024 .f32 := m ((c : Thread nD τ).loc main_arg10)
abbrev aBho (c : Dev nD) : FVec Ideal S1024 .f32 := m ((c : Thread nD τ).loc main_arg11)

/-- The shared parameters, from the arguments. -/
abbrev P (c : Dev nD) : Params :=
  paramsOf (aWih m c) (aWhh m c) (aBhh m c) (aGih m c) (aBih m c) (aGhh m c) (aBhh' m c) (aGho m c) (aBho m c)

/-- The host transposes each weight matrix and narrows it (which changes nothing on the extended reals) … -/
theorem v1_eq (c : Dev nD) : (V m c main_v1 : S1024x4096.Idx → EReal)
    = truncf .bf16 (transpose S1024x4096 [1, 0] (aWih m c) transposes_S4096x1024_S1024x4096_1_0) bitsLt_bf16_f32 := by
  dsimp only [Gen.V, Gen.hostOps0]; after_results
theorem v3_eq (c : Dev nD) : (V m c main_v3 : S1024x4096.Idx → EReal)
    = truncf .bf16 (transpose S1024x4096 [1, 0] (aWhh m c) transposes_S4096x1024_S1024x4096_1_0) bitsLt_bf16_f32 := by
  dsimp only [Gen.V, Gen.hostOps0]; after_results
/-- … and reshapes each parameter vector to a one-row matrix. -/
theorem v4_eq (c : Dev nD) : (V m c main_v4 : S1x4096.Idx → EReal) = shapeCast S1x4096 (aBhh m c) shapeCasts_S4096_S1x4096 := by
  dsimp only [Gen.V, Gen.hostOps0]; after_results; rfl
theorem v5_eq (c : Dev nD) : (V m c main_v5 : S1x4096.Idx → EReal) = shapeCast S1x4096 (aGih m c) shapeCasts_S4096_S1x4096 := by
  dsimp only [Gen.V, Gen.hostOps0]; after_results; rfl
theorem v6_eq (c : Dev nD) : (V m c main_v6 : S1x4096.Idx → EReal) = shapeCast S1x4096 (aBih m c) shapeCasts_S4096_S1x4096 := by
  dsimp only [Gen.V, Gen.hostOps0]; after_results; rfl
theorem v7_eq (c : Dev nD) : (V m c main_v7 : S1x4096.Idx → EReal) = shapeCast S1x4096 (aGhh m c) shapeCasts_S4096_S1x4096 := by
  dsimp only [Gen.V, Gen.hostOps0]; after_results; rfl
theorem v8_eq (c : Dev nD) : (V m c main_v8 : S1x4096.Idx → EReal) = shapeCast S1x4096 (aBhh' m c) shapeCasts_S4096_S1x4096 := by
  dsimp only [Gen.V, Gen.hostOps0]; after_results; rfl
theorem v9_eq (c : Dev nD) : (V m c main_v9 : S1x1024.Idx → EReal) = shapeCast S1x1024 (aGho m c) shapeCasts_S1024_S1x1024 := by
  dsimp only [Gen.V, Gen.hostOps0]; after_results; rfl
theorem v10_eq (c : Dev nD) : (V m c main_v10 : S1x1024.Idx → EReal) = shapeCast S1x1024 (aBho m c) shapeCasts_S1024_S1x1024 := by
  dsimp only [Gen.V, Gen.hostOps0]; after_results; rfl

/-! ## The blocks' rows and parameters are the arguments' -/

theorem bX_row (c : Dev nD) (t : Fin cfg0.N) (p : Fin 256) : row (bX m c t) p = row (aX m c) (rowOf t p) :=
  funext fun k => by
    show bX m c t (ix2 p k) = aX m c (ix2 (rowOf t p) k)
    rw [bX_apply, V_main_arg0]
theorem bH_row (c : Dev nD) (t : Fin cfg0.N) (p : Fin 256) : row (bH m c t) p = row (aH m c) (rowOf t p) :=
  funext fun k => by
    show bH m c t (ix2 p k) = aH m c (ix2 (rowOf t p) k)
    rw [bH_apply, V_main_arg1]
theorem bC_row (c : Dev nD) (t : Fin cfg0.N) (p : Fin 256) : row (bC m c t) p = row (aC m c) (rowOf t p) :=
  funext fun k => by
    show bC m c t (ix2 p k) = aC m c (ix2 (rowOf t p) k)
    rw [bC_apply, V_main_arg2]

/-- A column of the transposed weights the kernel holds is the argument's row. -/
theorem bWih_col (c : Dev nD) (t : Fin cfg0.N) (j : Fin 4096) : col (bWih m c t) j = row (aWih m c) j :=
  funext fun k => by
    show bWih m c t (ix2 k j) = aWih m c (ix2 j k)
    rw [bWih_apply, v1_eq]
    exact transpose_ix2_apply _ _ k j
theorem bWhh_col (c : Dev nD) (t : Fin cfg0.N) (j : Fin 4096) : col (bWhh m c t) j = row (aWhh m c) j :=
  funext fun k => by
    show bWhh m c t (ix2 k j) = aWhh m c (ix2 j k)
    rw [bWhh_apply, v3_eq]
    exact transpose_ix2_apply _ _ k j

/-- The one row of a parameter's block is the argument vector. -/
theorem bBhh_only (c : Dev nD) (t : Fin cfg0.N) : only (bBhh m c t) = ofVec (aBhh m c) :=
  funext fun j => by
    show bBhh m c t (ix2 (0 : Fin 1) j) = aBhh m c (ix1 j)
    rw [bBhh_apply, v4_eq]; exact shapeCast_a_1a_apply _ _ 0 j
theorem bGih_only (c : Dev nD) (t : Fin cfg0.N) : only (bGih m c t) = ofVec (aGih m c) :=
  funext fun j => by
    show bGih m c t (ix2 (0 : Fin 1) j) = aGih m c (ix1 j)
    rw [bGih_apply, v5_eq]; exact shapeCast_a_1a_apply _ _ 0 j
theorem bBih_only (c : Dev nD) (t : Fin cfg0.N) : only (bBih m c t) = ofVec (aBih m c) :=
  funext fun j => by
    show bBih m c t (ix2 (0 : Fin 1) j) = aBih m c (ix1 j)
    rw [bBih_apply, v6_eq]; exact shapeCast_a_1a_apply _ _ 0 j
theorem bGhh_only (c : Dev nD) (t : Fin cfg0.N) : only (bGhh m c t) = ofVec (aGhh m c) :=
  funext fun j => by
    show bGhh m c t (ix2 (0 : Fin 1) j) = aGhh m c (ix1 j)
    rw [bGhh_apply, v7_eq]; exact shapeCast_a_1a_apply _ _ 0 j
theorem bBhh'_only (c : Dev nD) (t : Fin cfg0.N) : only (bBhh' m c t) = ofVec (aBhh' m c) :=
  funext fun j => by
    show bBhh' m c t (ix2 (0 : Fin 1) j) = aBhh' m c (ix1 j)
    rw [bBhh'_apply, v8_eq]; exact shapeCast_a_1a_apply _ _ 0 j
theorem bGho_only (c : Dev nD) (t : Fin cfg0.N) : only (bGho m c t) = ofVec (aGho m c) :=
  funext fun j => by
    show bGho m c t (ix2 (0 : Fin 1) j) = aGho m c (ix1 j)
    rw [bGho_apply, v9_eq]; exact shapeCast_a_1a_apply _ _ 0 j
theorem bBho_only (c : Dev nD) (t : Fin cfg0.N) : only (bBho m c t) = ofVec (aBho m c) :=
  funext fun j => by
    show bBho m c t (ix2 (0 : Fin 1) j) = aBho m c (ix1 j)
    rw [bBho_apply, v10_eq]; exact shapeCast_a_1a_apply _ _ 0 j

/-- So the parameters the body sees at any point are the arguments'. -/
theorem params_blocks (c : Dev nD) (t : Fin cfg0.N) :
    params (bWih m c t) (bWhh m c t) (bBhh m c t) (bGih m c t) (bBih m c t) (bGhh m c t) (bBhh' m c t) (bGho m c t) (bBho m c t)
      = P m c := by
  have h1 : (fun j => col (bWih m c t) j) = fun j => row (aWih m c) j := funext fun j => bWih_col m c t j
  have h2 : (fun j => col (bWhh m c t) j) = fun j => row (aWhh m c) j := funext fun j => bWhh_col m c t j
  unfold params P paramsOf
  rw [h1, h2, bBhh_only, bGih_only, bBih_only, bGhh_only, bBhh'_only, bGho_only, bBho_only]

/-! ## What a point writes back -/

/-- The block's index `(p, q)` at point `t` is the array's index `(256 t + p, q)`, for both results. -/
theorem emb12 (t : Fin cfg0.N) (p : Fin 256) (q : Fin 1024) :
    ((cfg0.win 12).blk t).view.emb (ix2 p q) = ix2 (rowOf t p) q := by
  obtain ⟨e0, e1⟩ := idx12 t
  funext a; apply Fin.ext
  match a with
  | ⟨0, _⟩ => show win0_12.index t (0 : Fin 2) * 256 + 1 * p.val = t.val * 256 + p.val; omega
  | ⟨1, _⟩ => show win0_12.index t (1 : Fin 2) * 1024 + 1 * q.val = q.val; omega
theorem emb13 (t : Fin cfg0.N) (p : Fin 256) (q : Fin 1024) :
    ((cfg0.win 13).blk t).view.emb (ix2 p q) = ix2 (rowOf t p) q := by
  obtain ⟨e0, e1⟩ := idx13 t
  funext a; apply Fin.ext
  match a with
  | ⟨0, _⟩ => show win0_13.index t (0 : Fin 2) * 256 + 1 * p.val = t.val * 256 + p.val; omega
  | ⟨1, _⟩ => show win0_13.index t (1 : Fin 2) * 1024 + 1 * q.val = q.val; omega

/-- WHAT POINT `t` WRITES BACK to the hidden result is block `t` of the new hidden state of the arguments. -/
theorem flushed12_eq (c : Dev nD) (t : Fin cfg0.N) :
    (dats m 0 c).flushed 12 t = ((cfg0.win 12).blk t).view.read (Elt Ideal) (hyArr (P m c) (aX m c) (aH m c) (aC m c)) := by
  rw [flushed12]
  unfold out0_12
  rw [View.canon_unit_zero hz]
  simp only [View.ld_unit_zero (S := S256x1024) hz, View.ld_unit_zero (S := S1024x4096) hz,
    View.ld_unit_zero (S := S1x4096) hz, View.ld_unit_zero (S := S1x1024) hz]
  funext y
  obtain ⟨p, q, rfl⟩ : ∃ (p : Fin 256) (q : Fin 1024), y = ix2 p q := ⟨y 0, y 1, eq_ix2 y⟩
  show k0_pay1 (F := Ideal) (k0_pay6 (k0_pay2 (bH m c t) (bWhh m c t) (bBhh m c t)) (k0_pay3 (bBih m c t))
        (k0_pay4 (bX m c t) (bWih m c t) (bGih m c t)) (bGhh m c t) (bBhh' m c t))
      (k0_pay8 (k0_pay2 (bH m c t) (bWhh m c t) (bBhh m c t)) (k0_pay3 (bBih m c t))
        (k0_pay4 (bX m c t) (bWih m c t) (bGih m c t)) (bGhh m c t) (bBhh' m c t) (bC m c t))
      (k0_pay9 (bGho m c t)) (k0_pay10 (bBho m c t)) (ix2 p q)
    = hyArr (P m c) (aX m c) (aH m c) (aC m c) (((cfg0.win 12).blk t).view.emb (ix2 p q))
  rw [hy_block, params_blocks, bX_row, bH_row, bC_row, emb12, hyArr_ix2]

/-- WHAT POINT `t` WRITES BACK to the cell result is block `t` of the new cell state of the arguments. -/
theorem flushed13_eq (c : Dev nD) (t : Fin cfg0.N) :
    (dats m 0 c).flushed 13 t = ((cfg0.win 13).blk t).view.read (Elt Ideal) (cyArr (P m c) (aX m c) (aH m c) (aC m c)) := by
  rw [flushed13]
  unfold out0_13
  rw [View.canon_unit_zero hz]
  simp only [View.ld_unit_zero (S := S256x1024) hz, View.ld_unit_zero (S := S1024x4096) hz,
    View.ld_unit_zero (S := S1x4096) hz]
  funext y
  obtain ⟨p, q, rfl⟩ : ∃ (p : Fin 256) (q : Fin 1024), y = ix2 p q := ⟨y 0, y 1, eq_ix2 y⟩
  show k0_pay7 (F := Ideal) (k0_pay2 (bH m c t) (bWhh m c t) (bBhh m c t)) (k0_pay3 (bBih m c t))
        (k0_pay4 (bX m c t) (bWih m c t) (bGih m c t)) (bGhh m c t) (bBhh' m c t) (bC m c t) (ix2 p q)
    = cyArr (P m c) (aX m c) (aH m c) (aC m c) (((cfg0.win 13).blk t).view.emb (ix2 p q))
  rw [cy_block (g3 := bGho m c t) (b3 := bBho m c t), params_blocks, bX_row, bH_row, bC_row, emb13, cyArr_ix2]

/-! ## The 16 blocks cover each result -/

/-- An index of the array is in point `t`'s block iff each coordinate is in the block's range on its axis. -/
theorem mem_blk12 (t : Fin cfg0.N) (i : S4096x1024.Idx) :
    i ∈ ((cfg0.win 12).blk t).view.set ↔ ∀ a : Fin 2, win0_12.index t a * S256x1024.size a ≤ (i a).val
      ∧ (i a).val < win0_12.index t a * S256x1024.size a + S256x1024.size a := by
  show i ∈ ((View.whole main_v11_0).slice (win0_12.rect t)).set ↔ _
  rw [View.set_slice_whole, Rect.mem_set_unit]
  exact Iff.rfl
theorem mem_blk13 (t : Fin cfg0.N) (i : S4096x1024.Idx) :
    i ∈ ((cfg0.win 13).blk t).view.set ↔ ∀ a : Fin 2, win0_13.index t a * S256x1024.size a ≤ (i a).val
      ∧ (i a).val < win0_13.index t a * S256x1024.size a + S256x1024.size a := by
  show i ∈ ((View.whole main_v11_1).slice (win0_13.rect t)).set ↔ _
  rw [View.set_slice_whole, Rect.mem_set_unit]
  exact Iff.rfl

/-- Row `r` lies in the block of point `r / 256`. -/
theorem cover12 (i : S4096x1024.Idx) : ∃ t : Fin cfg0.N, (cfg0.win 12).flush t = true ∧ i ∈ ((cfg0.win 12).blk t).view.set := by
  have hi0 : (i 0).val < 4096 := (i 0).isLt
  have hi1 : (i 1).val < 1024 := (i 1).isLt
  let t : Fin cfg0.N := ⟨(i 0).val / 256, by show (i 0).val / 256 < 16; omega⟩
  obtain ⟨e0, e1⟩ := idx12 t
  have ht : t.val = (i 0).val / 256 := rfl
  refine ⟨t, flush0_12 t, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1024 ≤ (i 1).val ∧ (i 1).val < win0_12.index t (1 : Fin 2) * 1024 + 1024; omega
theorem cover13 (i : S4096x1024.Idx) : ∃ t : Fin cfg0.N, (cfg0.win 13).flush t = true ∧ i ∈ ((cfg0.win 13).blk t).view.set := by
  have hi0 : (i 0).val < 4096 := (i 0).isLt
  have hi1 : (i 1).val < 1024 := (i 1).isLt
  let t : Fin cfg0.N := ⟨(i 0).val / 256, by show (i 0).val / 256 < 16; omega⟩
  obtain ⟨e0, e1⟩ := idx13 t
  have ht : t.val = (i 0).val / 256 := rfl
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

/-! ## The arrays after the run, and the run re-posted -/

theorem final12 (c : Dev nD) : (dats m 0 c).arrAt 12 cfg0.N = hyArr (P m c) (aX m c) (aH m c) (aC m c) :=
  (dats m 0 c).arrAt_eq_of_cover 12 (hyArr (P m c) (aX m c) (aH m c) (aC m c)) (fun t _ => flushed12_eq m c t) cover12
theorem final13 (c : Dev nD) : (dats m 0 c).arrAt 13 cfg0.N = cyArr (P m c) (aX m c) (aH m c) (aC m c) :=
  (dats m 0 c).arrAt_eq_of_cover 13 (cyArr (P m c) (aX m c) (aH m c) (aC m c)) (fun t _ => flushed13_eq m c t) cover13

/-- Every weakly fair execution of the idealized kernel ends with the hidden result at the new hidden state of the
    arguments, the cell result at the new cell state, and the arguments unchanged. -/
theorem run : θ_run defs (onTc (τ := τ) (main (F := Ideal))) ⟨m, fun _ => 0, ρ⟩ fun r => ∀ c : Dev nD,
      r.2.mem ((c : Thread nD τ).loc main_v11_0) = hyArr (P m c) (aX m c) (aH m c) (aC m c)
      ∧ r.2.mem ((c : Thread nD τ).loc main_v11_1) = cyArr (P m c) (aX m c) (aH m c) (aC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c), (h c).2.1.trans (final13 m c), (h c).2.2⟩)
    (run_blocks m ρ)

end Cert.KernelIdeal.Arrays

end
-- ==== Proof.RefRow.lean ====
/-
  The reference's arrays, read row by row.

  The reference computes the same cell over the whole batch at once: 4096 rows, the two weight matrices transposed on
  the way into the products, the parameter vectors spread over the rows. Nothing in it mixes two rows either, so each
  of its intermediate arrays, at row `b`, is the cell's row function of row `b` of the inputs, the hidden state and the
  cell state. This module proves that for the intermediates the reference's run names (the two products, their means
  and deviations, the gates, `tanh` of the new cell row, its mean and deviation); the two results are read in the same
  way where the claims are assembled.
-/
import proofs.«413633_j31679678775450_3_alg».proof.Proof.Gen.ReferenceIdeal.Run
import proofs.«413633_j31679678775450_3_alg».proof.Proof.LibRowOps
import proofs.«413633_j31679678775450_3_alg».proof.Proof.RowSpec

noncomputable section

namespace Cert.ReferenceIdeal.RowValue

open Cert.ReferenceIdeal Cert.ReferenceIdeal.Gen Cert.ReferenceIdeal.Value Idealize.ShloMosaic Idealize.ShloMosaic.TcCoe
open Idealize.ShloMosaic.StableHlo Idealize.ShloMosaic.ValueIdx Cert.LibRowOps Cert.LibLayerNorm Cert.LnLstm

/-! ## The host's entry-by-entry functions at an index -/

theorem Hdivf_apply {s : Shape} {φ : FTy} (a b : FVec Ideal s φ) (i : s.Idx) : Host.divf a b i = Ideal.div (a i) (b i) := rfl
theorem Hrsqrt_apply {s : Shape} {φ : FTy} (a : FVec Ideal s φ) (i : s.Idx) : Host.rsqrt a i = Ideal.rsqrt (a i) := rfl
theorem Htanh_apply {s : Shape} {φ : FTy} (a : FVec Ideal s φ) (i : s.Idx) : Host.tanh a i = Ideal.tanh (a i) := rfl
theorem Hexp_apply {s : Shape} {φ : FTy} (a : FVec Ideal s φ) (i : s.Idx) : Host.exp a i = Ideal.exp (a i) := rfl
theorem Hnegf_apply {s : Shape} {φ : FTy} (a : FVec Ideal s φ) (i : s.Idx) : Host.negf a i = -(a i) := rfl

/-- The sum along a row names the position it inserts on axis 1 through this evidence. -/
theorem red4096 : (⟨2, ![4096, 4096]⟩ : Shape).Reduces [1] ⟨1, ![4096]⟩ := by decide
theorem red1024 : (⟨2, ![4096, 1024]⟩ : Shape).Reduces [1] ⟨1, ![4096]⟩ := by decide

/-- Push an index through the host's entry-wise operations, its broadcasts, transposes and column cuts, read its
    constants, and fold a logistic function that is spelt out. -/
macro "ref_push_index" : tactic => `(tactic| simp only [addf_apply, mulf_apply, subf_apply, Hdivf_apply, Hrsqrt_apply,
  Htanh_apply, Hexp_apply, Hnegf_apply, Host.dotGeneral,
  broadcastInDim_a_a1_apply (h := bcast_S4096_S4096x1_0),
  broadcastInDim_a1_ab_apply (h := bcast_S4096x1_S4096x4096_0_1), broadcastInDim_a1_ab_apply (h := bcast_S4096x1_S4096x1024_0_1),
  broadcastInDim_1b_ab_apply (h := bcast_S1x4096_S4096x4096_0_1), broadcastInDim_1b_ab_apply (h := bcast_S1x1024_S4096x1024_0_1),
  broadcastInDim_b_1b_apply (h := bcast_S4096_S1x4096_1), broadcastInDim_b_1b_apply (h := bcast_S1024_S1x1024_1),
  broadcastInDim_scalar_apply (h := bcast_S_S4096x1), broadcastInDim_scalar_apply (h := bcast_S_S4096x1024),
  transpose_ix2_apply (h := transposes_S4096x1024_S1024x4096_1_0),
  Host_reduceAdd_row (h' := reducesTo_S4096x4096_S4096_d1) (hu := h_S_) (h := red4096),
  Host_reduceAdd_row (h' := reducesTo_S4096x1024_S4096_d1) (hu := h_S_) (h := red1024),
  dotGeneral_plain_apply dot_S4096x1024_S1024x4096_S4096x4096_1_0_0_1_n_n rfl rfl rfl rfl rfl rfl,
  constant_apply, Ideal.ofBits_zero_f32, zero_add, slice2_axis1_eq, logistic_spelt])

/-- Then read every row sum and matrix product the index has reached, pushing on inside each new sum. -/
macro "ref_read_rows" : tactic => `(tactic| repeat (first
  | rw [Host_reduceAdd_row (h := red4096)]
  | rw [Host_reduceAdd_row (h := red1024)]
  | rw [dotGeneral_plain_apply _ rfl rfl rfl rfl rfl rfl]
  | ref_push_index))

/-! ## The arguments as the run finds them -/

section Args

variable (V0 : Valuation τ sig (Elt Ideal))

abbrev aX : FVec Ideal S4096x1024 .f32 := V0 (Proc.devRef .tc main_arg0)
abbrev aH : FVec Ideal S4096x1024 .f32 := V0 (Proc.devRef .tc main_arg1)
abbrev aC : FVec Ideal S4096x1024 .f32 := V0 (Proc.devRef .tc main_arg2)
abbrev aWih : FVec Ideal S4096x1024 .f32 := V0 (Proc.devRef .tc main_arg3)
abbrev aWhh : FVec Ideal S4096x1024 .f32 := V0 (Proc.devRef .tc main_arg4)
abbrev aBhh : FVec Ideal S4096 .f32 := V0 (Proc.devRef .tc main_arg5)
abbrev aGih : FVec Ideal S4096 .f32 := V0 (Proc.devRef .tc main_arg6)
abbrev aBih : FVec Ideal S4096 .f32 := V0 (Proc.devRef .tc main_arg7)
abbrev aGhh : FVec Ideal S4096 .f32 := V0 (Proc.devRef .tc main_arg8)
abbrev aBhh' : FVec Ideal S4096 .f32 := V0 (Proc.devRef .tc main_arg9)
abbrev aGho : FVec Ideal S1024 .f32 := V0 (Proc.devRef .tc main_arg10)
abbrev aBho : FVec Ideal S1024 .f32 := V0 (Proc.devRef .tc main_arg11)

/-- The shared parameters read off the reference's arguments: a weight's row is the argument's row (the program
    transposes it into the product), a parameter vector is the argument. -/
abbrev params : Params :=
  paramsOf (aWih V0) (aWhh V0) (aBhh V0) (aGih V0) (aBih V0) (aGhh V0) (aBhh' V0) (aGho V0) (aBho V0)

/-! ## The intermediates at row `b` -/

/-- The input product at `(b, j)`. -/
theorem v1_apply (b j : Fin 4096) : res_main_v1 V0 (ix2 b j) = i2h (params V0) (row (aX V0) b) j := by
  unfold res_main_v1
  ref_push_index
  ref_read_rows
  rfl

theorem v1_row (b : Fin 4096) : row (res_main_v1 V0) b = i2h (params V0) (row (aX V0) b) :=
  funext fun j => v1_apply V0 b j

/-- The hidden product plus its bias at `(b, j)`. -/
theorem v6_apply (b j : Fin 4096) : res_main_v6 V0 (ix2 b j) = h2h (params V0) (row (aH V0) b) j := by
  unfold res_main_v6
  ref_push_index
  ref_read_rows
  rfl

theorem v6_row (b : Fin 4096) : row (res_main_v6 V0) b = h2h (params V0) (row (aH V0) b) :=
  funext fun j => v6_apply V0 b j

/-- The input product's row mean, kept as a column. -/
theorem v10_apply (b : Fin 4096) (u : Fin 1) : res_main_v10 V0 (ix2 b u) = mean n4096 (row (res_main_v1 V0) b) := by
  unfold res_main_v10
  ref_push_index
  ref_read_rows
  rfl

/-- The input product's deviation from its row mean. -/
theorem v12_apply (b j : Fin 4096) :
    res_main_v12 V0 (ix2 b j) = row (res_main_v1 V0) b j - mean n4096 (row (res_main_v1 V0) b) := by
  unfold res_main_v12
  ref_push_index
  simp only [v10_apply]
  rfl

/-- The hidden product's row mean, kept as a column. -/
theorem v34_apply (b : Fin 4096) (u : Fin 1) : res_main_v34 V0 (ix2 b u) = mean n4096 (row (res_main_v6 V0) b) := by
  unfold res_main_v34
  ref_push_index
  ref_read_rows
  rfl

/-- The hidden product's deviation from its row mean. -/
theorem v36_apply (b j : Fin 4096) :
    res_main_v36 V0 (ix2 b j) = row (res_main_v6 V0) b j - mean n4096 (row (res_main_v6 V0) b) := by
  unfold res_main_v36
  ref_push_index
  simp only [v34_apply]
  rfl

/-- The gates at `(b, j)`. -/
theorem v55_apply (b j : Fin 4096) :
    res_main_v55 V0 (ix2 b j) = gates (params V0) (row (aX V0) b) (row (aH V0) b) j := by
  unfold res_main_v55
  ref_push_index
  ref_read_rows
  simp only [v10_apply, v34_apply, v12_apply, v36_apply]
  rw [v1_row, v6_row, v1_apply, v6_apply]
  rfl

/-- `tanh` of the new cell value at `(b, q)`. -/
theorem v82_apply (b : Fin 4096) (q : Fin 1024) :
    res_main_v82 V0 (ix2 b q) = tcy (params V0) (row (aX V0) b) (row (aH V0) b) (row (aC V0) b) q := by
  unfold res_main_v82
  ref_push_index
  simp only [v55_apply]
  rfl

theorem v82_row (b : Fin 4096) :
    row (res_main_v82 V0) b = tcy (params V0) (row (aX V0) b) (row (aH V0) b) (row (aC V0) b) :=
  funext fun q => v82_apply V0 b q

/-- Its row mean, kept as a column. -/
theorem v86_apply (b : Fin 4096) (u : Fin 1) : res_main_v86 V0 (ix2 b u) = mean n1024 (row (res_main_v82 V0) b) := by
  unfold res_main_v86
  ref_push_index
  ref_read_rows
  rfl

/-- Its deviation from its row mean. -/
theorem v88_apply (b : Fin 4096) (q : Fin 1024) :
    res_main_v88 V0 (ix2 b q) = row (res_main_v82 V0) b q - mean n1024 (row (res_main_v82 V0) b) := by
  unfold res_main_v88
  ref_push_index
  simp only [v86_apply]
  rfl

end Args

end Cert.ReferenceIdeal.RowValue

end
-- ==== Proof.lean ====
/-
  A layer-normalised LSTM cell: the Pallas kernel against its jnp reference, over the extended reals.

  Both programs take a batch of 4096 rows (inputs, hidden state and cell state, each 1024 wide), two weight matrices
  [4096, 1024], a hidden bias and the gains and biases of three layer norms, and return the new hidden and cell states.
  Every batch row is treated alone: the row of the inputs and the row of the hidden state are contracted with the
  weights' rows, each product is layer-normalised over its 4096 entries and the two are added (the gates); the gates are
  cut into the input, forget, output and candidate stretches; the new cell row is σ(f)·c + σ(i)·tanh g, and the new hidden
  row is σ(o) times the layer norm of tanh of the new cell row (`Cert.LnLstm.cy`, `Cert.LnLstm.hy`).

  The kernel runs on a grid of 16 points of 256 rows each, with the weights transposed and narrowed by the host and the
  parameter vectors reshaped to one-row matrices; it writes σ as one operation, the logistic function. The reference
  works on the whole batch, transposes the weights into the products, and spells σ out as 1 / (1 + e⁻ˣ). On the extended
  reals a change of float format is the identity, a matrix unit's product into a zero accumulator and the host's
  contraction are the same sum, a lane sum and the host's sum are the same sum, and the logistic function IS the quotient
  1 / (1 + e⁻ˣ) at every extended real; the three float words both programs write (4096, 1024 and the epsilon) are the same
  words on both sides. So both results are one function of the arguments, and no law that needs finite values is used:
  the precondition is not opened.

  The two idealized runs are stated with the same two arrays (`hyArr`, `cyArr` of the arguments) in their posts: the
  kernel's from its 16 blocks (Proof/KernelRow.lean, Proof/KernelArrays.lean), the reference's from its run's term read
  row by row (Proof/RefRow.lean). The idealization rewrote no operation, so nothing is owed for it.
-/
import proofs.«413633_j31679678775450_3_alg».proof.Defs
import proofs.«413633_j31679678775450_3_alg».proof.Proof.Gen.Kernel
import proofs.«413633_j31679678775450_3_alg».proof.Proof.Gen.Kernel.Skeleton
import proofs.«413633_j31679678775450_3_alg».proof.Proof.Gen.Kernel.Launch
import proofs.«413633_j31679678775450_3_alg».proof.Proof.Gen.Kernel.Points
import proofs.«413633_j31679678775450_3_alg».proof.Proof.Gen.Kernel.Frame
import proofs.«413633_j31679678775450_3_alg».proof.Proof.Gen.KernelIdeal
import proofs.«413633_j31679678775450_3_alg».proof.Proof.Gen.KernelIdeal.Skeleton
import proofs.«413633_j31679678775450_3_alg».proof.Proof.Gen.KernelIdeal.Launch
import proofs.«413633_j31679678775450_3_alg».proof.Proof.Gen.KernelIdeal.Points
import proofs.«413633_j31679678775450_3_alg».proof.Proof.Gen.KernelIdeal.Frame
import proofs.«413633_j31679678775450_3_alg».proof.Proof.Gen.ReferenceIdeal
import proofs.«413633_j31679678775450_3_alg».proof.Proof.Gen.ReferenceIdeal.Run
import proofs.«413633_j31679678775450_3_alg».proof.Proof.KernelIdealValueP
import proofs.«413633_j31679678775450_3_alg».proof.Proof.KernelArrays
import proofs.«413633_j31679678775450_3_alg».proof.Proof.RefRow
import proofs.«413633_j31679678775450_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx
open Cert.LibRowOps Cert.LibLayerNorm Cert.LnLstm

/-- The two idealized programs, run from memories that agree on the twelve arguments, end with the same two results:
    the new hidden state and the new cell state of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => hyArr (Cert.KernelIdeal.Arrays.P m c) (Cert.KernelIdeal.Arrays.aX m c) (Cert.KernelIdeal.Arrays.aH m c)
      (Cert.KernelIdeal.Arrays.aC m c),
    fun c => cyArr (Cert.KernelIdeal.Arrays.P m c) (Cert.KernelIdeal.Arrays.aX m c) (Cert.KernelIdeal.Arrays.aH m c)
      (Cert.KernelIdeal.Arrays.aC m c),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  all_goals
    -- the reference's arguments are the kernel's
    obtain ⟨h0, h1, h2, h3, h4, h5, h6, h7, h8, h9, h10, h11⟩ := hagree c
    have e0 : launchContents m' c (Proc.devRef .tc Cert.ReferenceIdeal.main_arg0) = Cert.KernelIdeal.Arrays.aX m c := h0
    have e1 : launchContents m' c (Proc.devRef .tc Cert.ReferenceIdeal.main_arg1) = Cert.KernelIdeal.Arrays.aH m c := h1
    have e2 : launchContents m' c (Proc.devRef .tc Cert.ReferenceIdeal.main_arg2) = Cert.KernelIdeal.Arrays.aC m c := h2
    have e3 : launchContents m' c (Proc.devRef .tc Cert.ReferenceIdeal.main_arg3) = Cert.KernelIdeal.Arrays.aWih m c := h3
    have e4 : launchContents m' c (Proc.devRef .tc Cert.ReferenceIdeal.main_arg4) = Cert.KernelIdeal.Arrays.aWhh m c := h4
    have e5 : launchContents m' c (Proc.devRef .tc Cert.ReferenceIdeal.main_arg5) = Cert.KernelIdeal.Arrays.aBhh m c := h5
    have e6 : launchContents m' c (Proc.devRef .tc Cert.ReferenceIdeal.main_arg6) = Cert.KernelIdeal.Arrays.aGih m c := h6
    have e7 : launchContents m' c (Proc.devRef .tc Cert.ReferenceIdeal.main_arg7) = Cert.KernelIdeal.Arrays.aBih m c := h7
    have e8 : launchContents m' c (Proc.devRef .tc Cert.ReferenceIdeal.main_arg8) = Cert.KernelIdeal.Arrays.aGhh m c := h8
    have e9 : launchContents m' c (Proc.devRef .tc Cert.ReferenceIdeal.main_arg9) = Cert.KernelIdeal.Arrays.aBhh' m c := h9
    have e10 : launchContents m' c (Proc.devRef .tc Cert.ReferenceIdeal.main_arg10) = Cert.KernelIdeal.Arrays.aGho m c := h10
    have e11 : launchContents m' c (Proc.devRef .tc Cert.ReferenceIdeal.main_arg11) = Cert.KernelIdeal.Arrays.aBho m c := h11
    generalize launchContents m' c = V0 at e0 e1 e2 e3 e4 e5 e6 e7 e8 e9 e10 e11 ⊢
    funext i
    obtain ⟨b, q, rfl⟩ : ∃ (b : Fin 4096) (q : Fin 1024), i = ix2 b q := ⟨i 0, i 1, eq_ix2 i⟩
    dsimp only
  · -- the hidden result: σ(o) times the layer norm of tanh of the new cell row
    rw [hyArr_ix2]
    ref_push_index
    ref_read_rows
    simp only [Cert.ReferenceIdeal.RowValue.v55_apply, Cert.ReferenceIdeal.RowValue.v86_apply, Cert.ReferenceIdeal.RowValue.v88_apply]
    rw [Cert.ReferenceIdeal.RowValue.v82_row, Cert.ReferenceIdeal.RowValue.v82_apply]
    dsimp only [Cert.ReferenceIdeal.RowValue.params, Cert.ReferenceIdeal.RowValue.aX, Cert.ReferenceIdeal.RowValue.aH, Cert.ReferenceIdeal.RowValue.aC, Cert.ReferenceIdeal.RowValue.aWih, Cert.ReferenceIdeal.RowValue.aWhh, Cert.ReferenceIdeal.RowValue.aBhh, Cert.ReferenceIdeal.RowValue.aGih, Cert.ReferenceIdeal.RowValue.aBih, Cert.ReferenceIdeal.RowValue.aGhh, Cert.ReferenceIdeal.RowValue.aBhh', Cert.ReferenceIdeal.RowValue.aGho, Cert.ReferenceIdeal.RowValue.aBho]
    simp only [e0, e1, e2, e3, e4, e5, e6, e7, e8, e9, e10, e11]
    rfl
  · -- the cell result: σ(f)·c + σ(i)·tanh g
    rw [cyArr_ix2]
    ref_push_index
    simp only [Cert.ReferenceIdeal.RowValue.v55_apply]
    dsimp only [Cert.ReferenceIdeal.RowValue.params, Cert.ReferenceIdeal.RowValue.aX, Cert.ReferenceIdeal.RowValue.aH, Cert.ReferenceIdeal.RowValue.aC, Cert.ReferenceIdeal.RowValue.aWih, Cert.ReferenceIdeal.RowValue.aWhh, Cert.ReferenceIdeal.RowValue.aBhh, Cert.ReferenceIdeal.RowValue.aGih, Cert.ReferenceIdeal.RowValue.aBih, Cert.ReferenceIdeal.RowValue.aGhh, Cert.ReferenceIdeal.RowValue.aBhh', Cert.ReferenceIdeal.RowValue.aGho, Cert.ReferenceIdeal.RowValue.aBho]
    simp only [e0, e1, e2, e3, e4, e5, e6, e7, e8, e9, e10, e11]
    rfl

/-- Everything the certificate claims. The kernel's and the idealized kernel's frames are their generated frame
    certificates; the reference's frame is its run with the results dropped; the idealization rewrote nothing. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2)
      (Cert.ReferenceIdeal.Value.run (F := Ideal) m ρ),
    trivial,
    algebraic⟩

end Cert.Proof

end
